-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x768 .f32) (main_arg2 : FVec F S128x768 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S1024x768 : Shape := ⟨2, ![1024, 768]⟩
abbrev S1024x128 : Shape := ⟨2, ![1024, 128]⟩
abbrev S768x128 : Shape := ⟨2, ![768, 128]⟩
abbrev S1x128 : Shape := ⟨2, ![1, 128]⟩
abbrev S1024 : Shape := ⟨1, ![1024]⟩
abbrev S1024x1 : Shape := ⟨2, ![1024, 1]⟩
abbrev S8192x8192 : Shape := ⟨2, ![8192, 8192]⟩
abbrev S2048x128 : Shape := ⟨2, ![2048, 128]⟩
abbrev S2048x2048 : Shape := ⟨2, ![2048, 2048]⟩
abbrev S128x2048 : Shape := ⟨2, ![128, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x768, .f32⟩
  | .hbm, ⟨2, _⟩ => ⟨S128x768, .f32⟩
  | .hbm, ⟨3, _⟩ => ⟨S128, .f32⟩
  | .hbm, ⟨4, _⟩ => ⟨S8192x128, .bf16⟩
  | .hbm, ⟨5, _⟩ => ⟨S8192x128, .bf16⟩
  | .hbm, ⟨6, _⟩ => ⟨S8192x8192, .f32⟩
  | .local _ .vmem, ⟨0, _⟩ => ⟨S1024x768, .f32⟩
  | .local _ .vmem, ⟨1, _⟩ => ⟨S1024x768, .f32⟩
  | .local _ .vmem, ⟨2, _⟩ => ⟨S128x768, .f32⟩
  | .local _ .vmem, ⟨3, _⟩ => ⟨S128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x2048, .f32⟩
  | .local _ .vmem, ⟨15, _⟩ => ⟨S2048x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S2048x2048_S2048x2048_0_0 : ∀ a, (![0, 0] : Fin 2 → Nat) a + S2048x2048.size a ≤ S2048x2048.size a
  h_S2048x2048 : 0 < S2048x2048.numel
  dot_S1024x768_S768x128_S1024x128_1_0_0_1_n_n_wf : DotDims.WF S1024x768 S768x128 S1024x128 [1] [0] [0] [1] [] []
  dot_S2048x128_S128x2048_S2048x2048_1_0_0_1_n_n_wf : DotDims.WF S2048x128 S128x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .bf16 = 32 ∨ (Rect.block (s := S8192x128) S2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .bf16 = 32 ∨ (Rect.block (s := S8192x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S8192x8192.size a
  hwx2_2 : ∀ i : grid2.Coords, EltTy.bits .f32 = 32 ∨ (Rect.block (s := S8192x8192) S2048x2048.size (cc2_transform_2 i) (hinb2_2 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

abbrev win0_0 : Pipeline.Window sig grid0 :=
  Pipeline.Window.ofSpec (Memref.whole main_arg1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x128 : Shape := ⟨2, ![8192, 128]⟩
abbrev S8192x768 : Shape := ⟨2, ![8192, 768]⟩
abbrev S128x768 : Shape := ⟨2, ![128, 768]⟩
abbrev S128 : Shape := ⟨1, ![128]⟩
abbrev S768x128 : Shape := ⟨2, ![768, 128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x768, .f32⟩
  | .hbm, ⟨2, _⟩ => ⟨S128x768, .f32⟩
  | .hbm, ⟨3, _⟩ => ⟨S128, .f32⟩
  | .hbm, ⟨4, _⟩ => ⟨S768x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S128x8192, .f32⟩
  | .hbm, ⟨30, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  transposes_S128x768_S768x128_1_0 : S128x768.Transposes [1, 0] S768x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  dot_S8192x768_S768x128_S8192x128_1_0_0_1_n_n_wf : DotDims.WF S8192x768 S768x128 S8192x128 [1] [0] [0] [1] [] []
  dot_S8192x128_S128x8192_S8192x8192_1_0_0_1_n_n_wf : DotDims.WF S8192x128 S128x8192 S8192x8192 [1] [0] [0] [1] [] []

variable [Facts₀]

def dot_S8192x768_S768x128_S8192x128_1_0_0_1_n_n : DotDims S8192x768 S768x128 S8192x128 where
  lhsContracting := [1]
  rhsContracting := [0]
  lhsNonContracting := [0]
  rhsNonContracting := [1]
  lhsBatch := []
  rhsBatch := []
  wf := dot_S8192x768_S768x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  Cosine similarity of every vision row with every projected text row, as functions of whole arrays.

  For a row u of extended reals its CLAMPED LENGTH is max (√(Σ_k u_k · u_k), ε), with ε the value of the f32 word
  0x322BCC77, and the row SCALED TO UNIT LENGTH is u_d divided by that clamped length, entry by entry. A text row x is
  first PROJECTED: entry d of the projection is (Σ_k x_k · w_{d,k}) + b_d for a weight matrix w (one row per output
  entry) and a bias b. The similarity of a vision row and a text row is the sum over d of the products of their scaled
  entries.

  Everything here is stated row by row, so that a block of rows of an array and the whole array are read by the same
  function: entry (r, d) of a scaled (or projected and scaled) array depends on row r of the operand only. That is the
  one fact the tiled computation needs, and it is `rfl` here: `unitRows_row`, `projRows_row`.
-/
import Idealize.ShloMosaic.PureOps.Ideal.Laws
import Idealize.ShloMosaic.Lib.ValueIdx

noncomputable section

open scoped BigOperators

namespace Cert.Cosine

open Idealize.ShloMosaic Idealize.ShloMosaic.ValueIdx

/-- The lower bound put under a row's length before dividing by it: the value of the f32 word 0x322BCC77. -/
def eps : EReal := Ideal.ofBits .f32 0x322BCC77#32

/-- A row's clamped length: the square root of the sum of its squared entries, and at least `eps`. -/
def len {n : Nat} (u : Fin n → EReal) : EReal := max (Ideal.sqrt (∑ k, u k * u k)) eps

/-- A row scaled to unit length: each entry divided by the row's clamped length. -/
def unitRow {n : Nat} (u : Fin n → EReal) (d : Fin n) : EReal := Ideal.div (u d) (len u)

/-- A row projected: entry `d` is the row's product with weight row `d`, plus bias entry `d`. -/
def projRow {K D : Nat} (x : Fin K → EReal) (w : Fin D → Fin K → EReal) (b : Fin D → EReal) (d : Fin D) : EReal :=
  (∑ k, x k * w d k) + b d

/-- An `R × C` array of extended reals. -/
abbrev Mat (R C : Nat) : Type := (⟨2, ![R, C]⟩ : Shape).Idx → EReal
/-- A length-`C` array of extended reals. -/
abbrev Arr (C : Nat) : Type := (⟨1, ![C]⟩ : Shape).Idx → EReal

/-- Row `r` of an array. -/
def row {R C : Nat} (X : Mat R C) (r : Fin R) : Fin C → EReal := fun k => X (ix2 r k)

/-- Every row of an array scaled to unit length. -/
def unitRows {R C : Nat} (X : Mat R C) : Mat R C := fun i => unitRow (row X (i 0)) (i 1)

/-- Every row of an array projected by the weights `W` (one row per output entry) and the bias `B`. -/
def projRows {R K D : Nat} (X : Mat R K) (W : Mat D K) (B : Arr D) : Mat R D :=
  fun i => projRow (row X (i 0)) (fun d => row W d) (fun d => B (ix1 d)) (i 1)

/-- Entry (i, j): the sum over `d` of row `i` of `A` times row `j` of `T`. -/
def dots {N M D : Nat} (A : Mat N D) (T : Mat M D) : Mat N M := fun i => ∑ k : Fin D, row A (i 0) k * row T (i 1) k

/-- The text side: every text row projected, then scaled to unit length. -/
def textUnit {R K D : Nat} (X : Mat R K) (W : Mat D K) (B : Arr D) : Mat R D := unitRows (projRows X W B)

/-- The whole result: every scaled vision row against every projected and scaled text row. -/
def cosine {N M K D : Nat} (V : Mat N D) (X : Mat M K) (W : Mat D K) (B : Arr D) : Mat N M :=
  dots (unitRows V) (textUnit X W B)

/-! ## Each entry depends on its own row only -/

theorem unitRows_ix2 {R C : Nat} (X : Mat R C) (r : Fin R) (d : Fin C) : unitRows X (ix2 r d) = unitRow (row X r) d := rfl

theorem projRows_ix2 {R K D : Nat} (X : Mat R K) (W : Mat D K) (B : Arr D) (r : Fin R) (d : Fin D) :
    projRows X W B (ix2 r d) = projRow (row X r) (fun d => row W d) (fun d => B (ix1 d)) d := rfl

theorem row_projRows {R K D : Nat} (X : Mat R K) (W : Mat D K) (B : Arr D) (r : Fin R) :
    row (projRows X W B) r = projRow (row X r) (fun d => row W d) (fun d => B (ix1 d)) := rfl

theorem dots_ix2 {N M D : Nat} (A : Mat N D) (T : Mat M D) (i : Fin N) (j : Fin M) :
    dots A T (ix2 i j) = ∑ k : Fin D, row A i k * row T j k := rfl

/-- Two arrays with the same row, at row `r` of one and row `r'` of the other, have the same scaled entries there. -/
theorem unitRows_row {R R' C : Nat} (X : Mat R C) (X' : Mat R' C) (r : Fin R) (r' : Fin R') (d : Fin C)
    (h : row X r = row X' r') : unitRows X (ix2 r d) = unitRows X' (ix2 r' d) := by
  rw [unitRows_ix2, unitRows_ix2, h]

/-- The same for projected and scaled rows. -/
theorem textUnit_row {R R' K D : Nat} (X : Mat R K) (X' : Mat R' K) (W : Mat D K) (B : Arr D) (r : Fin R) (r' : Fin R')
    (d : Fin D) (h : row X r = row X' r') : textUnit X W B (ix2 r d) = textUnit X' W B (ix2 r' d) := by
  unfold textUnit
  refine unitRows_row _ _ r r' d ?_
  rw [row_projRows, row_projRows, h]

/-- Entry (i, j) of the products depends on row `i` of the left array and row `j` of the right one only. -/
theorem dots_row {N N' M M' D : Nat} (A : Mat N D) (A' : Mat N' D) (T : Mat M D) (T' : Mat M' D)
    (i : Fin N) (i' : Fin N') (j : Fin M) (j' : Fin M') (hA : row A i = row A' i') (hT : row T j = row T' j') :
    dots A T (ix2 i j) = dots A' T' (ix2 i' j') := by
  rw [dots_ix2, dots_ix2, hA, hT]

/-! ## The same at any index: equal rows and equal positions in the row give equal entries

Stated for an index `j` of one array and an index `j'` of another (a block and the whole array), the positions in the
row compared as numbers. -/

theorem unitRows_congr {R R' C : Nat} (X : Mat R C) (X' : Mat R' C) (j : (⟨2, ![R, C]⟩ : Shape).Idx)
    (j' : (⟨2, ![R', C]⟩ : Shape).Idx) (hrow : row X (j 0) = row X' (j' 0)) (hcol : (j 1).val = (j' 1).val) :
    unitRows X j = unitRows X' j' := by
  show unitRow (row X (j 0)) (j 1) = unitRow (row X' (j' 0)) (j' 1)
  rw [hrow]
  exact congrArg (unitRow (row X' (j' 0))) (Fin.ext hcol)

theorem textUnit_congr {R R' K D : Nat} (X : Mat R K) (X' : Mat R' K) (W : Mat D K) (B : Arr D)
    (j : (⟨2, ![R, D]⟩ : Shape).Idx) (j' : (⟨2, ![R', D]⟩ : Shape).Idx)
    (hrow : row X (j 0) = row X' (j' 0)) (hcol : (j 1).val = (j' 1).val) :
    textUnit X W B j = textUnit X' W B j' := by
  unfold textUnit
  refine unitRows_congr _ _ j j' ?_ hcol
  show projRow (row X (j 0)) (fun d => row W d) (fun d => B (ix1 d)) = projRow (row X' (j' 0)) (fun d => row W d) (fun d => B (ix1 d))
  exact congrArg (fun x => projRow x (fun d => row W d) (fun d => B (ix1 d))) hrow

theorem dots_congr {N N' M M' D : Nat} (A : Mat N D) (A' : Mat N' D) (T : Mat M D) (T' : Mat M' D)
    (j : (⟨2, ![N, M]⟩ : Shape).Idx) (j' : (⟨2, ![N', M']⟩ : Shape).Idx)
    (hA : row A (j 0) = row A' (j' 0)) (hT : row T (j 1) = row T' (j' 1)) : dots A T j = dots A' T' j' := by
  show ∑ k : Fin D, row A (j 0) k * row T (j 1) k = ∑ k : Fin D, row A' (j' 0) k * row T' (j' 1) k
  rw [hA, hT]

end Cert.Cosine
-- ==== Proof.ColumnLayout.lean ====
/-
  Two reads of a column of row statistics.

  A statistic computed once per row (a row's sum, length, maximum) is kept as an `[a]` array, viewed as an `[a, 1]`
  column, and then spread along each row of an `[a, b]` array. Read at an index, the column at `(p, u)` is the
  statistic of row `p` whatever the unit coordinate `u`, and the spread array at `(p, c)` is the column's entry for row
  `p` whatever the position `c` in the row.
-/
import Idealize.ShloMosaic.Lib.Pipeline.Value
import Idealize.ShloMosaic.Lib.ValueIdx

noncomputable section

namespace Cert.ColumnLayout

open Idealize.ShloMosaic Idealize.ShloMosaic.ValueIdx

variable {α : Type}

/-- An `[a]` array cast to an `[a, 1]` column reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Payload.lean ====
/-
  What each kernel body stores, as a function of the blocks it loads.

  The text kernel's block of 1024 rows: each row of the loaded text block is projected by the whole weight array and
  the bias (a product with the weights transposed, accumulated from zero, plus the bias spread over the rows), and the
  projected row is scaled to unit length: its entries are squared and summed along the row, the square root of the sum
  is clamped below by ε, the clamped length is spread back along the row, and the row is divided by it. The vision
  kernel's block is its loaded block scaled in the same way. The similarity kernel's 2048 × 2048 block is the product
  of its vision block with its text block transposed, accumulated from zero: entry (i, j) is the sum over the 128
  features of vision row i times text row j.

  Changes of float format are the identity at the ideal values, so the bf16 operands and results are the same
  extended reals as their f32 sources.
-/
import proofs.«168252_j28037546508716_1_alg».proof.Proof.Gen.KernelIdeal.Skeleton
import proofs.«168252_j28037546508716_1_alg».proof.Proof.Spec
import proofs.«168252_j28037546508716_1_alg».proof.Proof.ColumnLayout
import proofs.«168252_j28037546508716_1_alg».proof.Proof.LibDotPlain
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Cosine Cert.ColumnLayout

/-! ## Scaling 1024 rows of 128 entries to unit length -/

/-- The sum of each row's squared entries. -/
def sumsq (u : FVec Ideal S1024x128 .f32) : FVec Ideal S1024 .f32 :=
  multiReduction .add [1] S1024 (mulf u u) 0x00000000#32 reduces_S1024x128_S1024 (.inl rfl) rfl

/-- Each row's clamped length, as a column. -/
def clampLen (u : FVec Ideal S1024x128 .f32) : FVec Ideal S1024x1 .f32 :=
  maximumf (sqrt (shapeCast S1024x1 (sumsq u) shapeCasts_S1024_S1024x1)) (broadcast S1024x1 (Scalar.ofBits .f32 0x322BCC77#32))

/-- Each row divided by its clamped length. -/
def scale (u : FVec Ideal S1024x128 .f32) : FVec Ideal S1024x128 .bf16 :=
  truncf .bf16 (divf u (broadcastTo S1024x128 (clampLen u) broadcasts_S1024x1_S1024x128)) bitsLt_bf16_f32

/-- The lane sum at row `p` is the sum over the row's 128 positions. -/
theorem rowsum (v : FVec Ideal S1024x128 .f32) (p : Fin 1024) :
    multiReduction .add [1] S1024 v 0x00000000#32 reduces_S1024x128_S1024 (.inl rfl) rfl (ix1 p)
      = ∑ k : Fin 128, v (ix2 p k) := by
  refine (Ideal.multiReduction_add_single v 0x00000000#32 reduces_S1024x128_S1024 (.inl rfl) rfl (ix1 p)).trans ?_
  show ∑ k : Fin 128, v (reduces_S1024x128_S1024.lift (ix1 p) k) = _
  refine Finset.sum_congr rfl fun k _ => congrArg v (funext fun a => Fin.ext (by
    match a with
    | ⟨0, _⟩ => rfl
    | ⟨1, _⟩ => rfl))

theorem sumsq_apply (u : FVec Ideal S1024x128 .f32) (p : Fin 1024) :
    sumsq u (ix1 p) = ∑ k : Fin 128, u (ix2 p k) * u (ix2 p k) := by
  unfold sumsq
  exact rowsum (mulf u u) p

theorem clampLen_apply (u : FVec Ideal S1024x128 .f32) (p : Fin 1024) (z : Fin 1) :
    clampLen u (ix2 p z) = len (row u p) := by
  show max (Ideal.sqrt (shapeCast S1024x1 (sumsq u) shapeCasts_S1024_S1024x1 (ix2 p z))) (Ideal.ofBits .f32 0x322BCC77#32) = _
  rw [shapeCast_a_a1_apply (sumsq u) shapeCasts_S1024_S1024x1 p z, sumsq_apply]
  rfl

/-- The body's scaling is the row-by-row scaling to unit length. -/
theorem scale_eq (u : FVec Ideal S1024x128 .f32) : scale u = unitRows u := by
  funext j
  obtain ⟨p, q, rfl⟩ : ∃ (p : Fin 1024) (q : Fin 128), j = ix2 p q := ⟨j 0, j 1, eq_ix2 j⟩
  show Ideal.div (u (ix2 p q)) (broadcastTo S1024x128 (clampLen u) broadcasts_S1024x1_S1024x128 (ix2 p q)) = _
  rw [broadcastTo_a1_ab_apply (clampLen u) broadcasts_S1024x1_S1024x128 p q, clampLen_apply]
  rfl

/-! ## Projecting 1024 text rows -/

/-- The text block times the weights transposed, accumulated from zero, plus the bias on every row. -/
def feat (x : FVec Ideal S1024x768 .f32) (w : FVec Ideal S128x768 .f32) (b : FVec Ideal S128 .f32) : FVec Ideal S1024x128 .f32 :=
  addf (matmul dot_S1024x768_S768x128_S1024x128_1_0_0_1_n_n none (truncf .bf16 x bitsLt_bf16_f32)
      (transpose S768x128 [1, 0] (truncf .bf16 w bitsLt_bf16_f32) transposes_S128x768_p1_0_S768x128) (constant S1024x128 .f32 0x00000000#32))
    (broadcastTo S1024x128 (shapeCast S1x128 b shapeCasts_S128_S1x128) broadcasts_S1x128_S1024x128)

/-- It is the row-by-row projection. -/
theorem feat_eq (x : FVec Ideal S1024x768 .f32) (w : FVec Ideal S128x768 .f32) (b : FVec Ideal S128 .f32) :
    feat x w b = projRows x w b := by
  funext j
  obtain ⟨p, q, rfl⟩ : ∃ (p : Fin 1024) (q : Fin 128), j = ix2 p q := ⟨j 0, j 1, eq_ix2 j⟩
  show matmul dot_S1024x768_S768x128_S1024x128_1_0_0_1_n_n none (truncf .bf16 x bitsLt_bf16_f32)
        (transpose S768x128 [1, 0] (truncf .bf16 w bitsLt_bf16_f32) transposes_S128x768_p1_0_S768x128) (constant S1024x128 .f32 0x00000000#32) (ix2 p q)
      + broadcastTo S1024x128 (shapeCast S1x128 b shapeCasts_S128_S1x128) broadcasts_S1x128_S1024x128 (ix2 p q) = _
  rw [broadcastTo_1b_ab_apply (shapeCast S1x128 b shapeCasts_S128_S1x128) broadcasts_S1x128_S1024x128 p q,
    shapeCast_a_1a_apply b shapeCasts_S128_S1x128 (0 : Fin 1) q]
  refine congrArg (· + b (ix1 q)) ?_
  refine (Cert.LibDotPlain.matmul_zero_plain 1024 768 128 none (truncf .bf16 x bitsLt_bf16_f32)
    (transpose S768x128 [1, 0] (truncf .bf16 w bitsLt_bf16_f32) transposes_S128x768_p1_0_S768x128) p q).trans ?_
  refine Finset.sum_congr rfl fun k _ => ?_
  show x (ix2 p k) * transpose S768x128 [1, 0] (truncf .bf16 w bitsLt_bf16_f32) transposes_S128x768_p1_0_S768x128 (ix2 k q) = _
  rw [transpose_ix2_apply (truncf .bf16 w bitsLt_bf16_f32) transposes_S128x768_p1_0_S768x128 k q]
  rfl

/-! ## The three payloads -/

/-- The text kernel stores its text block projected and scaled. -/
theorem text_payload (x : FVec Ideal S1024x768 .f32) (w : FVec Ideal S128x768 .f32) (b : FVec Ideal S128 .f32) :
    k0_pay1 (F := Ideal) x w b = textUnit x w b := by
  show scale (feat x w b) = _
  rw [scale_eq, feat_eq]
  rfl

/-- The vision kernel stores its block scaled. -/
theorem vision_payload (v : FVec Ideal S1024x128 .f32) : k1_pay1 (F := Ideal) v = unitRows v := by
  show scale v = _
  exact scale_eq v

/-- The similarity kernel stores the products of its vision block's rows with its text block's rows. -/
theorem sim_payload (a t : FVec Ideal S2048x128 .bf16) : k2_pay1 (F := Ideal) a t = dots a t := by
  funext j
  obtain ⟨p, q, rfl⟩ : ∃ (p : Fin 2048) (q : Fin 2048), j = ix2 p q := ⟨j 0, j 1, eq_ix2 j⟩
  show matmul dot_S2048x128_S128x2048_S2048x2048_1_0_0_1_n_n none (shapeCast S2048x128 a shapeCasts_S2048x128_S2048x128)
      (transpose S128x2048 [1, 0] (shapeCast S2048x128 t shapeCasts_S2048x128_S2048x128) transposes_S2048x128_p1_0_S128x2048)
      (constant S2048x2048 .f32 0x00000000#32) (ix2 p q) = _
  rw [shapeCast_self a, shapeCast_self t]
  refine (Cert.LibDotPlain.matmul_zero_plain 2048 128 2048 none a
    (transpose S128x2048 [1, 0] t transposes_S2048x128_p1_0_S128x2048) p q).trans ?_
  refine Finset.sum_congr rfl fun k _ => ?_
  rw [transpose_ix2_apply t transposes_S2048x128_p1_0_S128x2048 k q]
  rfl

end Cert.KernelIdeal.Payload
-- ==== Proof.TextBlocks.lean ====
/-
  The text kernel's array: every text row projected and scaled to unit length.

  The kernel walks the 8192 text rows in 8 blocks of 1024. At block t its text window holds rows 1024·t … 1024·t + 1023
  of the text array, its weight and bias windows hold those arrays whole, and what it writes back is block t of the
  output array. Since entry (r, d) of the projected and scaled array depends on text row r only, what the kernel
  computes from its block of rows is that block of the function of the whole arrays; the 8 blocks tile the output, so
  the output array ends holding the function everywhere. All of it at any contents `V` of the buffers when the kernel
  is entered.
-/
import proofs.«168252_j28037546508716_1_alg».proof.Proof.Gen.KernelIdeal.Frame
import proofs.«168252_j28037546508716_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.TextBlocks

open Cert.KernelIdeal Cert.KernelIdeal.Gen Cert.KernelIdeal.Payload Cert.Cosine Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The text array, the weights and the bias as the kernel finds them, and what its output array should end holding. -/
abbrev textArr (c : Dev nD) : FVec Ideal S8192x768 .f32 := V c main_arg1
abbrev weightArr (c : Dev nD) : FVec Ideal S128x768 .f32 := V c main_arg2
abbrev biasArr (c : Dev nD) : FVec Ideal S128 .f32 := V c main_arg3
abbrev result (c : Dev nD) : FVec Ideal S8192x128 .bf16 := textUnit (textArr V c) (weightArr V c) (biasArr V c)

/-- The block indices, decided over the 8 grid points: the text window and the output window are at row block `t`,
    the weight and bias windows at their one block. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the text window's block at point `t` is row `1024·t + p` of the text array. -/
theorem text_rows (c : Dev nD) (t : Fin cfg0.N) (p : Fin 1024) (r : Fin 8192) (hr : r.val = t.val * 1024 + p.val) :
    row (iblk0 V c 0 t : FVec Ideal S1024x768 .f32) p = row (textArr V c) r := by
  funext k
  show (iblk0 V c 0 t : FVec Ideal S1024x768 .f32) (ix2 p k) = textArr V c (ix2 r k)
  unfold iblk0
  rw [View.read_apply]
  show V c main_arg1 _ = V c main_arg1 _
  congr 1
  funext a
  apply Fin.ext
  obtain ⟨e0, e1, -⟩ := idx t
  match a with
  | ⟨0, _⟩ => show win0_0.index t (0 : Fin 2) * 1024 + 1 * p.val = r.val; rw [e0, hr]; omega
  | ⟨1, _⟩ => show win0_0.index t (1 : Fin 2) * 768 + 1 * k.val = k.val; rw [e1]; omega

/-- The weight window's block is the whole weight array, at every point. -/
theorem weight_block (c : Dev nD) (t : Fin cfg0.N) : (iblk0 V c 1 t : FVec Ideal S128x768 .f32) = weightArr V c := by
  funext y
  unfold iblk0
  rw [View.read_apply]
  show V c main_arg2 _ = V c main_arg2 y
  congr 1
  funext a
  apply Fin.ext
  obtain ⟨-, -, e2, e3, -⟩ := idx t
  match a with
  | ⟨0, _⟩ => show win0_1.index t (0 : Fin 2) * 128 + 1 * (y 0).val = (y 0).val; rw [e2]; omega
  | ⟨1, _⟩ => show win0_1.index t (1 : Fin 2) * 768 + 1 * (y 1).val = (y 1).val; rw [e3]; omega

/-- The bias window's block is the whole bias array, at every point. -/
theorem bias_block (c : Dev nD) (t : Fin cfg0.N) : (iblk0 V c 2 t : FVec Ideal S128 .f32) = biasArr V c := by
  funext y
  unfold iblk0
  rw [View.read_apply]
  show V c main_arg3 _ = V c main_arg3 y
  congr 1
  funext a
  apply Fin.ext
  obtain ⟨-, -, -, -, e4, -⟩ := idx t
  match a with
  | ⟨0, _⟩ => show win0_2.index t (0 : Fin 1) * 128 + 1 * (y 0).val = (y 0).val; rw [e4]; omega

/-- What point `t` writes back is block `t` of `result`. -/
theorem flushed (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz2]
  simp only [View.ld_unit_zero (S := S1024x768) hz2, View.ld_unit_zero (S := S128x768) hz2, View.ld_unit_zero (S := S128) hz1]
  rw [text_payload (iblk0 V c 0 t) (iblk0 V c 1 t) (iblk0 V c 2 t), weight_block V c t, bias_block V c t]
  funext y
  rw [View.read_apply]
  obtain ⟨-, -, -, -, -, e5, e6⟩ := idx t
  refine textUnit_congr (R := 1024) (R' := 8192) (K := 768) (D := 128) (iblk0 V c 0 t) (textArr V c) (weightArr V c) (biasArr V c)
    y (((cfg0.win 3).blk t).view.emb y) ?_ ?_
  · refine text_rows V c t (y 0) _ ?_
    show win0_3.index t (0 : Fin 2) * 1024 + 1 * (y 0).val = t.val * 1024 + (y 0).val
    rw [e5]; omega
  · show (y 1).val = win0_3.index t (1 : Fin 2) * 128 + 1 * (y 1).val
    rw [e6]; omega

/-- An index of the output array is in point `t`'s block iff each coordinate is in the block's range on its axis. -/
theorem mem_blk (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0).slice (win0_3.rect t)).set ↔ _
  rw [View.set_slice_whole, Rect.mem_set_unit]
  exact Iff.rfl

/-- Row `r` of the output array is in the block of point `r / 1024`. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ : ∃ t : Fin cfg0.N, t.val = (i 0).val / 1024 := ⟨⟨(i 0).val / 1024, by rw [show cfg0.N = 8 from N_0]; omega⟩, rfl⟩
  obtain ⟨-, -, -, -, -, e5, e6⟩ := idx t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e5, ht]; omega
  | ⟨1, _⟩ => show win0_3.index t (1 : Fin 2) * 128 ≤ (i 1).val ∧ (i 1).val < win0_3.index t (1 : Fin 2) * 128 + 128; rw [e6]; omega

/-- The output array after the kernel: every text row projected and scaled. -/
theorem final (c : Dev nD) : (dat0 V c).arrAt 3 cfg0.N = result V c :=
  (dat0 V c).arrAt_eq_of_cover 3 (result V c) (fun t _ => flushed V c t) cover

end Cert.KernelIdeal.TextBlocks
-- ==== Proof.VisionBlocks.lean ====
/-
  The vision kernel's array: every vision row scaled to unit length.

  The kernel walks the 8192 vision rows in 8 blocks of 1024. At block t its input window holds rows
  1024·t … 1024·t + 1023 of the vision array and it writes back block t of its output array. The scaled entry (r, d)
  depends on vision row r only, so the kernel's block of scaled rows is that block of the whole array scaled; the 8
  blocks tile the output. All of it at any contents `V` of the buffers when the kernel is entered.
-/
import proofs.«168252_j28037546508716_1_alg».proof.Proof.Gen.KernelIdeal.Frame
import proofs.«168252_j28037546508716_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.VisionBlocks

open Cert.KernelIdeal Cert.KernelIdeal.Gen Cert.KernelIdeal.Payload Cert.Cosine Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The vision array as the kernel finds it, and what its output array should end holding. -/
abbrev visionArr (c : Dev nD) : FVec Ideal S8192x128 .f32 := V c main_arg0
abbrev result (c : Dev nD) : FVec Ideal S8192x128 .bf16 := unitRows (visionArr V c)

/-- The block indices, decided over the 8 grid points: both windows are at row block `t`. -/
theorem idx : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `p` of the input window's block at point `t` is row `1024·t + p` of the vision array. -/
theorem vision_rows (c : Dev nD) (t : Fin cfg1.N) (p : Fin 1024) (r : Fin 8192) (hr : r.val = t.val * 1024 + p.val) :
    row (iblk1 V c 0 t : FVec Ideal S1024x128 .f32) p = row (visionArr V c) r := by
  funext k
  show (iblk1 V c 0 t : FVec Ideal S1024x128 .f32) (ix2 p k) = visionArr V c (ix2 r k)
  unfold iblk1
  rw [View.read_apply]
  show V c main_arg0 _ = V c main_arg0 _
  congr 1
  funext a
  apply Fin.ext
  obtain ⟨e0, e1, -⟩ := idx t
  match a with
  | ⟨0, _⟩ => show win1_0.index t (0 : Fin 2) * 1024 + 1 * p.val = r.val; rw [e0, hr]; omega
  | ⟨1, _⟩ => show win1_0.index t (1 : Fin 2) * 128 + 1 * k.val = k.val; rw [e1]; omega

/-- What point `t` writes back is block `t` of `result`. -/
theorem flushed (c : Dev nD) (t : Fin cfg1.N) :
    (dat1 V c).flushed 1 t = ((cfg1.win 1).blk t).view.read (Elt Ideal) (result V c) := by
  show (cfg1.win 1).cut (grid1.coords t) ((dat1 V c).after 1 t) = _
  rw [after1_1]
  unfold out1_1
  rw [View.canon_unit_zero hz2]
  simp only [View.ld_unit_zero (S := S1024x128) hz2]
  rw [vision_payload (iblk1 V c 0 t)]
  funext y
  rw [View.read_apply]
  obtain ⟨-, -, e2, e3⟩ := idx t
  refine unitRows_congr (R := 1024) (R' := 8192) (C := 128) (iblk1 V c 0 t) (visionArr V c)
    y (((cfg1.win 1).blk t).view.emb y) ?_ ?_
  · refine vision_rows V c t (y 0) _ ?_
    show win1_1.index t (0 : Fin 2) * 1024 + 1 * (y 0).val = t.val * 1024 + (y 0).val
    rw [e2]; omega
  · show (y 1).val = win1_1.index t (1 : Fin 2) * 128 + 1 * (y 1).val
    rw [e3]; omega

/-- An index of the output array is in point `t`'s block iff each coordinate is in the block's range on its axis. -/
theorem mem_blk (t : Fin cfg1.N) (i : S8192x128.Idx) :
    i ∈ ((cfg1.win 1).blk t).view.set ↔ ∀ a : Fin 2, win1_1.index t a * S1024x128.size a ≤ (i a).val ∧ (i a).val < win1_1.index t a * S1024x128.size a + S1024x128.size a := by
  show i ∈ ((View.whole main_v1).slice (win1_1.rect t)).set ↔ _
  rw [View.set_slice_whole, Rect.mem_set_unit]
  exact Iff.rfl

/-- Row `r` of the output array is in the block of point `r / 1024`. -/
theorem cover (i : S8192x128.Idx) : ∃ t : Fin cfg1.N, (cfg1.win 1).flush t = true ∧ i ∈ ((cfg1.win 1).blk t).view.set := by
  have hi0 : (i 0).val < 8192 := (i 0).isLt
  have hi1 : (i 1).val < 128 := (i 1).isLt
  obtain ⟨t, ht⟩ : ∃ t : Fin cfg1.N, t.val = (i 0).val / 1024 := ⟨⟨(i 0).val / 1024, by rw [show cfg1.N = 8 from N_1]; omega⟩, rfl⟩
  obtain ⟨-, -, e2, e3⟩ := idx t
  refine ⟨t, flush1_1 t, ?_⟩
  rw [mem_blk]
  intro a
  match a with
  | ⟨0, _⟩ => show win1_1.index t (0 : Fin 2) * 1024 ≤ (i 0).val ∧ (i 0).val < win1_1.index t (0 : Fin 2) * 1024 + 1024; rw [e2, ht]; omega
  | ⟨1, _⟩ => show win1_1.index t (1 : Fin 2) * 128 ≤ (i 1).val ∧ (i 1).val < win1_1.index t (1 : Fin 2) * 128 + 128; rw [e3]; omega

/-- The output array after the kernel: every vision row scaled. -/
theorem final (c : Dev nD) : (dat1 V c).arrAt 1 cfg1.N = result V c :=
  (dat1 V c).arrAt_eq_of_cover 1 (result V c) (fun t _ => flushed V c t) cover

end Cert.KernelIdeal.VisionBlocks
-- ==== Proof.SimBlocks.lean ====
/-
  The similarity kernel's array: every row of its first operand against every row of its second.

  The kernel walks the 8192 × 8192 output in a 4 × 4 grid of 2048 × 2048 blocks, point t at block row t / 4 and block
  column t % 4. There its first window holds rows 2048·(t / 4) … of the first operand array and its second window rows
  2048·(t % 4) … of the second, and it writes back that output block. Entry (i, j) of the products depends on row i of
  the first operand and row j of the second only, so the kernel's block is that block of the products of the whole
  arrays; the 16 blocks tile the output. All of it at any contents `V` of the buffers when the kernel is entered.
-/
import proofs.«168252_j28037546508716_1_alg».proof.Proof.Gen.KernelIdeal.Frame
import proofs.«168252_j28037546508716_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.SimBlocks

open Cert.KernelIdeal Cert.KernelIdeal.Gen Cert.KernelIdeal.Payload Cert.Cosine Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The two operand arrays as the kernel finds them (the scaled vision rows, the scaled text rows), and what its
    output array should end holding. -/
abbrev leftArr (c : Dev nD) : FVec Ideal S8192x128 .bf16 := V c main_v1
abbrev rightArr (c : Dev nD) : FVec Ideal S8192x128 .bf16 := V c main_v0
abbrev result (c : Dev nD) : FVec Ideal S8192x8192 .f32 := dots (leftArr V c) (rightArr V c)

/-- The block indices, decided over the 16 grid points. -/
theorem idx : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4 :=
  (by decide +kernel : ∀ t : Fin grid2.N, _)

/-- Row `p` of the first window's block at point `t` is row `2048·(t / 4) + p` of the first operand. -/
theorem left_rows (c : Dev nD) (t : Fin cfg2.N) (p : Fin 2048) (r : Fin 8192) (hr : r.val = t.val / 4 * 2048 + p.val) :
    row (iblk2 V c 0 t : FVec Ideal S2048x128 .bf16) p = row (leftArr V c) r := by
  funext k
  show (iblk2 V c 0 t : FVec Ideal S2048x128 .bf16) (ix2 p k) = leftArr V c (ix2 r k)
  unfold iblk2
  rw [View.read_apply]
  show V c main_v1 _ = V c main_v1 _
  congr 1
  funext a
  apply Fin.ext
  obtain ⟨e0, e1, -⟩ := idx t
  match a with
  | ⟨0, _⟩ => show win2_0.index t (0 : Fin 2) * 2048 + 1 * p.val = r.val; rw [e0, hr]; omega
  | ⟨1, _⟩ => show win2_0.index t (1 : Fin 2) * 128 + 1 * k.val = k.val; rw [e1]; omega

/-- Row `p` of the second window's block at point `t` is row `2048·(t % 4) + p` of the second operand. -/
theorem right_rows (c : Dev nD) (t : Fin cfg2.N) (p : Fin 2048) (r : Fin 8192) (hr : r.val = t.val % 4 * 2048 + p.val) :
    row (iblk2 V c 1 t : FVec Ideal S2048x128 .bf16) p = row (rightArr V c) r := by
  funext k
  show (iblk2 V c 1 t : FVec Ideal S2048x128 .bf16) (ix2 p k) = rightArr V c (ix2 r k)
  unfold iblk2
  rw [View.read_apply]
  show V c main_v0 _ = V c main_v0 _
  congr 1
  funext a
  apply Fin.ext
  obtain ⟨-, -, e2, e3, -⟩ := idx t
  match a with
  | ⟨0, _⟩ => show win2_1.index t (0 : Fin 2) * 2048 + 1 * p.val = r.val; rw [e2, hr]; omega
  | ⟨1, _⟩ => show win2_1.index t (1 : Fin 2) * 128 + 1 * k.val = k.val; rw [e3]; omega

/-- What point `t` writes back is its block of `result`. -/
theorem flushed (c : Dev nD) (t : Fin cfg2.N) :
    (dat2 V c).flushed 2 t = ((cfg2.win 2).blk t).view.read (Elt Ideal) (result V c) := by
  show (cfg2.win 2).cut (grid2.coords t) ((dat2 V c).after 2 t) = _
  rw [after2_2]
  unfold out2_2
  rw [View.canon_unit_zero hz2]
  simp only [View.ld_unit_zero (S := S2048x128) hz2]
  rw [sim_payload (iblk2 V c 0 t) (iblk2 V c 1 t)]
  funext y
  rw [View.read_apply]
  obtain ⟨-, -, -, -, e4, e5⟩ := idx t
  refine dots_congr (N := 2048) (N' := 8192) (M := 2048) (M' := 8192) (D := 128) (iblk2 V c 0 t) (leftArr V c) (iblk2 V c 1 t) (rightArr V c)
    y (((cfg2.win 2).blk t).view.emb y) ?_ ?_
  · refine left_rows V c t (y 0) _ ?_
    show win2_2.index t (0 : Fin 2) * 2048 + 1 * (y 0).val = t.val / 4 * 2048 + (y 0).val
    rw [e4]; omega
  · refine right_rows V c t (y 1) _ ?_
    show win2_2.index t (1 : Fin 2) * 2048 + 1 * (y 1).val = t.val % 4 * 2048 + (y 1).val
    rw [e5]; omega

/-- An index of the output array is in point `t`'s block iff each coordinate is in the block's range on its axis. -/
theorem mem_blk (t : Fin cfg2.N) (i : S8192x8192.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v2).slice (win2_2.rect t)).set ↔ _
  rw [View.set_slice_whole, Rect.mem_set_unit]
  exact Iff.rfl

/-- Entry (i, j) of the output array is in the block of point `4·(i / 2048) + j / 2048`. -/
theorem cover (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ : ∃ t : Fin cfg2.N, t.val = (i 0).val / 2048 * 4 + (i 1).val / 2048 :=
    ⟨⟨(i 0).val / 2048 * 4 + (i 1).val / 2048, by rw [show cfg2.N = 16 from N_2]; omega⟩, rfl⟩
  obtain ⟨-, -, -, -, e4, e5⟩ := idx t
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; rw [e4, ht]; omega
  | ⟨1, _⟩ => show win2_2.index t (1 : Fin 2) * 2048 ≤ (i 1).val ∧ (i 1).val < win2_2.index t (1 : Fin 2) * 2048 + 2048; rw [e5, ht]; omega

/-- The output array after the kernel: every row of the first operand against every row of the second. -/
theorem final (c : Dev nD) : (dat2 V c).arrAt 2 cfg2.N = result V c :=
  (dat2 V c).arrAt_eq_of_cover 2 (result V c) (fun t _ => flushed V c t) cover

end Cert.KernelIdeal.SimBlocks
-- ==== Proof.KernelValue.lean ====
/-
  The kernel program's result: the cosine similarity of every vision row with every projected text row.

  The three kernels run in order, each finding the buffers as the one before left them. The text kernel leaves the
  projected and scaled text rows in its output array and touches no other array; the vision kernel then leaves the
  scaled vision rows in its own output array, the text kernel's output staying as it was; the similarity kernel reads
  those two arrays and leaves, in the result array, every scaled vision row against every scaled text row. Read back
  through the three boundaries, the result array is `cosine` of the four argument arrays as launched.
-/
import proofs.«168252_j28037546508716_1_alg».proof.Proof.KernelIdealRun
import proofs.«168252_j28037546508716_1_alg».proof.Proof.TextBlocks
import proofs.«168252_j28037546508716_1_alg».proof.Proof.VisionBlocks
import proofs.«168252_j28037546508716_1_alg».proof.Proof.SimBlocks

set_option maxRecDepth 16384

noncomputable section

open Idealize.ShloMosaic Idealize.ShloMosaic.TcCoe Idealize.SL.Sem

namespace Cert.KernelIdeal.KernelValue

open Cert.KernelIdeal Cert.KernelIdeal.Gen Cert.Cosine

variable (m : (ℓ : Loc nD τ sig) → Buf (Elt Ideal) ℓ) (ρ : Dev nD → PrngReg)

/-- The four argument arrays as launched. -/
abbrev visionArg (c : Dev nD) : FVec Ideal S8192x128 .f32 := m ((c.tc : Thread nD τ).loc main_arg0)
abbrev textArg (c : Dev nD) : FVec Ideal S8192x768 .f32 := m ((c.tc : Thread nD τ).loc main_arg1)
abbrev weightArg (c : Dev nD) : FVec Ideal S128x768 .f32 := m ((c.tc : Thread nD τ).loc main_arg2)
abbrev biasArg (c : Dev nD) : FVec Ideal S128 .f32 := m ((c.tc : Thread nD τ).loc main_arg3)

/-- After the text kernel its output array holds the projected and scaled text rows. -/
theorem text_after (c : Dev nD) :
    (W1 m ρ c (Proc.devRef .tc main_v0) : FVec Ideal S8192x128 .bf16) = textUnit (textArg m c) (weightArg m c) (biasArg m c) :=
  (W1_arr m ρ c 3).trans (TextBlocks.final (V0 m ρ) c)

/-- The vision kernel leaves that array as it was. -/
theorem text_kept (c : Dev nD) :
    (W2 m ρ c (Proc.devRef .tc main_v0) : FVec Ideal S8192x128 .bf16) = textUnit (textArg m c) (weightArg m c) (biasArg m c) :=
  (W2_of_ne m ρ c main_v0 (by decide)).trans (text_after m ρ c)

/-- The vision kernel finds the vision array as launched: the text kernel does not touch it. -/
theorem vision_entry (c : Dev nD) : (W1 m ρ c (Proc.devRef .tc main_arg0) : FVec Ideal S8192x128 .f32) = visionArg m c :=
  W1_of_ne m ρ c main_arg0 (by decide)

/-- After the vision kernel its output array holds the scaled vision rows. -/
theorem vision_after (c : Dev nD) :
    (W2 m ρ c (Proc.devRef .tc main_v1) : FVec Ideal S8192x128 .bf16) = unitRows (visionArg m c) := by
  refine (W2_arr m ρ c 1).trans ((VisionBlocks.final (V1 m ρ) c).trans ?_)
  show unitRows (W1 m ρ c (Proc.devRef .tc main_arg0) : FVec Ideal S8192x128 .f32) = _
  rw [vision_entry]

/-- After the similarity kernel the result array holds the cosine similarities. -/
theorem result_after (c : Dev nD) :
    (W3 m ρ c (Proc.devRef .tc main_v2) : FVec Ideal S8192x8192 .f32)
      = cosine (visionArg m c) (textArg m c) (weightArg m c) (biasArg m c) := by
  refine (W3_arr m ρ c 2).trans ((SimBlocks.final (V2 m ρ) c).trans ?_)
  show dots (W2 m ρ c (Proc.devRef .tc main_v1) : FVec Ideal S8192x128 .bf16) (W2 m ρ c (Proc.devRef .tc main_v0) : FVec Ideal S8192x128 .bf16) = _
  rw [vision_after, text_kept]
  rfl

/-- The run: the result array ends at the cosine similarities of the arguments as launched, the arguments unchanged. -/
theorem run : θ_run defs (onTc (τ := τ) (main (F := Ideal))) ⟨m, fun _ => 0, ρ⟩ (fun r => ∀ c : Dev nD,
      r.2.mem ((c.tc : Thread nD τ).loc main_v2) = cosine (visionArg m c) (textArg m c) (weightArg m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_after m ρ c), (h c).2⟩) (RunNamed.run_named m ρ)

end Cert.KernelIdeal.KernelValue
-- ==== Proof.RefValue.lean ====
/-
  The reference computes the same function of the arguments.

  Operation by operation: the text array times the weights transposed plus the bias on every row is the row-by-row
  projection; each of the two length computations (square, sum along the row from zero, square root, clamp below by ε)
  is the clamped length of a row; dividing an array by its lengths spread along the rows scales every row to unit
  length; and the last product, of the scaled vision rows with the scaled text rows transposed, is at entry (i, j) the
  sum over the 128 features of scaled vision row i times scaled text row j. The sums from zero are the sums (zero is
  neutral for the sum of extended reals), and the host's division and square root are the kernel's at the ideal values.
-/
import proofs.«168252_j28037546508716_1_alg».proof.Proof.Gen.ReferenceIdeal.Read
import proofs.«168252_j28037546508716_1_alg».proof.Proof.Spec

noncomputable section

open scoped BigOperators

namespace Cert.ReferenceIdeal.RefValue

open Cert.ReferenceIdeal Cert.ReferenceIdeal.Gen Cert.ReferenceIdeal.Read Cert.Cosine
open Idealize.ShloMosaic Idealize.ShloMosaic.ValueIdx

/-- The projected text rows. -/
theorem feat_eq (x1 : FVec Ideal S8192x768 .f32) (x2 : FVec Ideal S128x768 .f32) (x3 : FVec Ideal S128 .f32) :
    val_main_v4 (F := Ideal) x1 x2 x3 = projRows x1 x2 x3 := by
  funext j
  obtain ⟨p, q, rfl⟩ : ∃ (p : Fin 8192) (q : Fin 128), j = ix2 p q := ⟨j 0, j 1, eq_ix2 j⟩
  have hl : ∀ k : Fin 768, lidx_main_v1 (ix2 p q) k = ix2 p k := fun k => funext fun a => Fin.ext (by
    match a with
    | ⟨0, _⟩ => rfl
    | ⟨1, _⟩ => rfl)
  have hr : ∀ k : Fin 768, idx_main_v0 (ridx_main_v1 (ix2 p q) k) = ix2 q k := fun k => funext fun a => Fin.ext (by
    match a with
    | ⟨0, _⟩ => rfl
    | ⟨1, _⟩ => rfl)
  have hb : idx_main_v2 (idx_main_v3 (ix2 p q)) = ix1 q := funext fun a => Fin.ext (by
    match a with
    | ⟨0, _⟩ => rfl)
  rw [val_main_v4_apply, val_main_v1_apply, val_main_v3_apply, val_main_v2_apply]
  simp only [val_main_v0_apply, hl, hr, hb, Ideal.addf_def]
  rfl

/-- The clamped length of each vision row, as the reference's column. -/
theorem vision_len (x0 : FVec Ideal S8192x128 .f32) (p : Fin 8192) (z : Fin 1) :
    val_main_v7 (F := Ideal) x0 (ix2 p z) = len (row x0 p) := by
  have hi : ∀ k : Fin 128, idx_main_call0_v1 (idx_main_call0_v2 (ix2 p z)) k = ix2 p k := fun k => funext fun a => Fin.ext (by
    match a with
    | ⟨0, _⟩ => rfl
    | ⟨1, _⟩ => rfl)
  rw [val_main_v7_apply, val_main_v5_apply, val_main_v6_apply, val_main_cst_apply, val_main_call0_v2_apply,
    val_main_call0_v1_apply, val_main_call0_cst_apply]
  simp only [hi, val_main_call0_v0_apply, Ideal.maximumf_def, Ideal.hostUnary_sqrt_def, Ideal.ofBits_def, Ideal.mulf_def,
    Ideal.ofBits_zero_f32, zero_add]
  rfl

/-- The clamped length of each projected text row, as the reference's column. -/
theorem text_len (x1 : FVec Ideal S8192x768 .f32) (x2 : FVec Ideal S128x768 .f32) (x3 : FVec Ideal S128 .f32) (p : Fin 8192) (z : Fin 1) :
    val_main_v10 (F := Ideal) x1 x2 x3 (ix2 p z) = len (row (projRows x1 x2 x3) p) := by
  have hi : ∀ k : Fin 128, idx_main_call1_v1 (idx_main_call1_v2 (ix2 p z)) k = ix2 p k := fun k => funext fun a => Fin.ext (by
    match a with
    | ⟨0, _⟩ => rfl
    | ⟨1, _⟩ => rfl)
  rw [val_main_v10_apply, val_main_v8_apply, val_main_v9_apply, val_main_cst_0_apply, val_main_call1_v2_apply,
    val_main_call1_v1_apply, val_main_call1_cst_apply]
  simp only [hi, val_main_call1_v0_apply, feat_eq, Ideal.maximumf_def, Ideal.hostUnary_sqrt_def, Ideal.ofBits_def, Ideal.mulf_def,
    Ideal.ofBits_zero_f32, zero_add]
  rfl

/-- The scaled vision rows. -/
theorem vision_eq (x0 : FVec Ideal S8192x128 .f32) : val_main_v12 (F := Ideal) x0 = unitRows x0 := by
  funext j
  obtain ⟨p, q, rfl⟩ : ∃ (p : Fin 8192) (q : Fin 128), j = ix2 p q := ⟨j 0, j 1, eq_ix2 j⟩
  have hi : idx_main_v11 (ix2 p q) = ix2 p (0 : Fin 1) := funext fun a => Fin.ext (by
    match a with
    | ⟨0, _⟩ => rfl
    | ⟨1, _⟩ => rfl)
  rw [val_main_v12_apply, val_main_v11_apply, hi, vision_len]
  rfl

/-- The projected and scaled text rows. -/
theorem text_eq (x1 : FVec Ideal S8192x768 .f32) (x2 : FVec Ideal S128x768 .f32) (x3 : FVec Ideal S128 .f32) :
    val_main_v14 (F := Ideal) x1 x2 x3 = textUnit x1 x2 x3 := by
  funext j
  obtain ⟨p, q, rfl⟩ : ∃ (p : Fin 8192) (q : Fin 128), j = ix2 p q := ⟨j 0, j 1, eq_ix2 j⟩
  have hi : idx_main_v13 (ix2 p q) = ix2 p (0 : Fin 1) := funext fun a => Fin.ext (by
    match a with
    | ⟨0, _⟩ => rfl
    | ⟨1, _⟩ => rfl)
  rw [val_main_v14_apply, val_main_v13_apply, hi, text_len, feat_eq]
  rfl

/-- The reference's result is the cosine similarity of every vision row with every projected text row. -/
theorem result_eq (x0 : FVec Ideal S8192x128 .f32) (x1 : FVec Ideal S8192x768 .f32) (x2 : FVec Ideal S128x768 .f32) (x3 : FVec Ideal S128 .f32) :
    val_main_v16 (F := Ideal) x0 x1 x2 x3 = cosine x0 x1 x2 x3 := by
  funext j
  obtain ⟨p, q, rfl⟩ : ∃ (p : Fin 8192) (q : Fin 8192), j = ix2 p q := ⟨j 0, j 1, eq_ix2 j⟩
  have hl : ∀ k : Fin 128, lidx_main_v16 (ix2 p q) k = ix2 p k := fun k => funext fun a => Fin.ext (by
    match a with
    | ⟨0, _⟩ => rfl
    | ⟨1, _⟩ => rfl)
  have hr : ∀ k : Fin 128, idx_main_v15 (ridx_main_v16 (ix2 p q) k) = ix2 q k := fun k => funext fun a => Fin.ext (by
    match a with
    | ⟨0, _⟩ => rfl
    | ⟨1, _⟩ => rfl)
  rw [val_main_v16_apply]
  simp only [val_main_v15_apply, hl, hr, vision_eq, text_eq]
  rfl

end Cert.ReferenceIdeal.RefValue
-- ==== Proof.lean ====
/-
  Cosine similarity of 8192 vision rows with 8192 projected text rows: the tiled kernels against the plain formula.

  Both programs compute, for vision row i and text row j,

      Σ_d  ( v_{i,d} / max(√(Σ_k v_{i,k}²), ε) ) · ( f_{j,d} / max(√(Σ_k f_{j,k}²), ε) ),   f_{j,d} = (Σ_k x_{j,k} · w_{d,k}) + b_d,

  with ε the value of the f32 word 0x322BCC77 (`Cosine.cosine`). The kernel program does it in three tiled stages —
  the text rows projected and scaled in 8 blocks of 1024 rows, the vision rows scaled in 8 blocks of 1024 rows, the
  products in a 4 × 4 grid of 2048 × 2048 blocks — and because every entry of each stage depends on its own rows only,
  each block is that block of the stage's function of the whole arrays, and the blocks tile their arrays
  (`TextBlocks`, `VisionBlocks`, `SimBlocks`; the stages chained in `KernelValue`). The reference computes the same
  stages on whole arrays (`RefValue`). No law of the extended reals beyond "zero is neutral for a sum" is used, so the
  equality holds for all inputs and the finiteness precondition is never opened; the changes of float format in the
  kernel are the identity at the ideal values, and the idealization rewrote nothing, so `preserves` is trivial.
-/
import proofs.«168252_j28037546508716_1_alg».proof.Defs
import proofs.«168252_j28037546508716_1_alg».proof.Proof.Gen.Kernel
import proofs.«168252_j28037546508716_1_alg».proof.Proof.Gen.Kernel.Skeleton
import proofs.«168252_j28037546508716_1_alg».proof.Proof.Gen.Kernel.Launch
import proofs.«168252_j28037546508716_1_alg».proof.Proof.Gen.Kernel.Points
import proofs.«168252_j28037546508716_1_alg».proof.Proof.Gen.Kernel.Frame
import proofs.«168252_j28037546508716_1_alg».proof.Proof.Gen.KernelIdeal
import proofs.«168252_j28037546508716_1_alg».proof.Proof.Gen.KernelIdeal.Skeleton
import proofs.«168252_j28037546508716_1_alg».proof.Proof.Gen.KernelIdeal.Launch
import proofs.«168252_j28037546508716_1_alg».proof.Proof.Gen.KernelIdeal.Points
import proofs.«168252_j28037546508716_1_alg».proof.Proof.Gen.KernelIdeal.Frame
import proofs.«168252_j28037546508716_1_alg».proof.Proof.Gen.ReferenceIdeal
import proofs.«168252_j28037546508716_1_alg».proof.Proof.Gen.Pre_finite_inputs
import proofs.«168252_j28037546508716_1_alg».proof.Proof.Gen.ReferenceIdeal.Run
import proofs.«168252_j28037546508716_1_alg».proof.Proof.Gen.ReferenceIdeal.Read
import proofs.«168252_j28037546508716_1_alg».proof.Proof.KernelValue
import proofs.«168252_j28037546508716_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the cosine similarities of those arguments
    in their result arrays: the kernel program by its three stages, the reference by its operations read one by one. -/
theorem algebraic : Cert.algebraic_KernelIdeal_ReferenceIdeal := by
  intro m ρ m' ρ' _ hagree
  refine ⟨fun c => Cert.Cosine.cosine (Cert.KernelIdeal.KernelValue.visionArg m c) (Cert.KernelIdeal.KernelValue.textArg m c)
      (Cert.KernelIdeal.KernelValue.weightArg m c) (Cert.KernelIdeal.KernelValue.biasArg m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
